-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S800000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S800000 .f32 := Host.absf main_arg4
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  main_v23

def fn {F : FTy → Type} [FloatOps F] (main_arg0 : FVec F S50000x64 .f32) (main_arg1 : FVec F S64x64 .f32) (main_arg2 : FVec F S64 .f32) (main_arg3 : FVec F S64 .f32) (main_arg4 : FVec F S800000 .f32) (main_arg5 : IVec S800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 27
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S50000x64, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x1, .f32⟩
  | .hbm, ⟨18, _⟩ => ⟨S800000x64, .f32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S1x64, .f32⟩
  | .hbm, ⟨25, _⟩ => ⟨S1x64, .f32⟩
  | .hbm, ⟨26, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩

abbrev nBuf : Space → Nat
  | .hbm => 50
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S800000, .f32⟩
  | .hbm, ⟨5, _⟩ => ⟨S800000, .i32⟩
  | .hbm, ⟨6, _⟩ => ⟨S800000, .i32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x1, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S_, .f32⟩
  | .hbm, ⟨33, _⟩ => ⟨S50000x64, .f32⟩
  | .hbm, ⟨34, _⟩ => ⟨S50000x64, .i1⟩
  | .hbm, ⟨35, _⟩ => ⟨S_, .f32⟩
  | .hbm, ⟨36, _⟩ => ⟨S50000x64, .f32⟩
  | .hbm, ⟨37, _⟩ => ⟨S50000x64, .i1⟩
  | .hbm, ⟨38, _⟩ => ⟨S_, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_cst_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_cst_1 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x64_S64x64_S50000x64_1_1_0_0_n_n_wf : DotDims.WF S50000x64 S64x64 S50000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibDotNT.lean ====
/-
  A rank-2 matrix product with the RIGHT operand read transposed, at an index, at the ideal
  instance (floats are the extended reals).

  The product of an `[M, K]` array by an `[N, K]` array contracting axis 1 of both (the einsum
  `"mk,nk->mn"`): the result's axis 0 is the left operand's axis 0, its axis 1 the right operand's
  axis 0. At the ideal instance the host's general dot product is, at `(p, q)`, the sum over the
  contraction index of the products of the operands' entries; re-indexed by the one contracted
  coordinate the sum runs over `Fin K`:
      (l · rᵀ)[p, q] = ∑ k : Fin K, l[p, k] * r[q, k].
-/
import Idealize.ShloMosaic.PureOps.Ideal
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

/-- [M,K] x [N,K] -> [M,N], contracting axis 1 of both, no batch axis. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT
variable {M K N : Nat}
  (wf : DotDims.WF ⟨2, ![M, K]⟩ ⟨2, ![N, K]⟩ ⟨2, ![M, N]⟩ [1] [1] [0] [0] [] [])

/-- The left operand's axis 0 is free: its coordinate is the result's row. -/
private theorem nt_lhs0 (j : (⟨2, ![M, N]⟩ : Shape).Idx) (k : (ntDims M K N wf).contr.Idx) :
    ((ntDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is contracted: at the contraction index with coordinate `c` it is `c`. -/
private theorem nt_lhs1 (j : (⟨2, ![M, N]⟩ : Shape).Idx) (c : Fin K) :
    ((ntDims M K N wf).lhsIdx j ((contrEquiv1 (ntDims M K N wf) K rfl rfl).symm c) 1).val = c.val := by
  rw [(ntDims M K N wf).lhsIdx_val_of_single rfl]
  exact contrEquiv1_symm_val (ntDims M K N wf) K rfl rfl c

/-- The right operand's axis 0 is free: its coordinate is the result's column. -/
private theorem nt_rhs0 (j : (⟨2, ![M, N]⟩ : Shape).Idx) (k : (ntDims M K N wf).contr.Idx) :
    ((ntDims M K N wf).rhsIdx j k 0).val = (j 1).val := by
  unfold DotDims.rhsIdx
  rw [dif_neg (show (0 : Fin 2) ∉ ([] : List (Fin 2)) by decide),
    dif_pos (show (0 : Fin 2) ∈ [(0 : Fin 2)] by decide)]
  rfl

/-- The right operand's axis 1 is contracted: at the contraction index with coordinate `c` it is `c`. -/
private theorem nt_rhs1 (j : (⟨2, ![M, N]⟩ : Shape).Idx) (c : Fin K) :
    ((ntDims M K N wf).rhsIdx j ((contrEquiv1 (ntDims M K N wf) K rfl rfl).symm c) 1).val = c.val := by
  rw [(ntDims M K N wf).rhsIdx_val_of_single rfl]
  exact contrEquiv1_symm_val (ntDims M K N wf) K rfl rfl c

/-- The contraction's sum at `(p, q)` is the sum over `k : Fin K` of `l[p, k] * r[q, k]`. -/
theorem nt_sum (l : (⟨2, ![M, K]⟩ : Shape).Idx → EReal) (r : (⟨2, ![N, K]⟩ : Shape).Idx → EReal)
    (p : Fin M) (q : Fin N) :
    ∑ k : (ntDims M K N wf).contr.Idx,
        l ((ntDims M K N wf).lhsIdx (ix2 p q) k) * r ((ntDims M K N wf).rhsIdx (ix2 p q) k)
      = ∑ k : Fin K, l (ix2 p k) * r (ix2 q k) := by
  rw [← Equiv.sum_comp (contrEquiv1 (ntDims M K N wf) K rfl rfl).symm]
  refine Finset.sum_congr rfl fun c _ => ?_
  have hl : (ntDims M K N wf).lhsIdx (ix2 p q) ((contrEquiv1 (ntDims M K N wf) K rfl rfl).symm c)
      = ix2 p c := by
    funext a; apply Fin.ext
    match a with
    | ⟨0, _⟩ => exact nt_lhs0 wf (ix2 p q) _
    | ⟨1, _⟩ => exact nt_lhs1 wf (ix2 p q) c
  have hr : (ntDims M K N wf).rhsIdx (ix2 p q) ((contrEquiv1 (ntDims M K N wf) K rfl rfl).symm c)
      = ix2 q c := by
    funext a; apply Fin.ext
    match a with
    | ⟨0, _⟩ => exact nt_rhs0 wf (ix2 p q) _
    | ⟨1, _⟩ => exact nt_rhs1 wf (ix2 p q) c
  rw [hl, hr]

end NT

/-- The host's general dot product of `[M, K]` by `[N, K]` contracting axis 1 of both, at
    `(p, q)`: `∑ k, l[p, k] * r[q, k]` in the extended reals. -/
theorem host_dotGeneral_nt_apply {M K N : Nat} {φ₁ φ₂ : FTy}
    (wf : DotDims.WF ⟨2, ![M, K]⟩ ⟨2, ![N, K]⟩ ⟨2, ![M, N]⟩ [1] [1] [0] [0] [] [])
    (prec : Option ContractPrecision)
    (l : FVec Ideal ⟨2, ![M, K]⟩ φ₁) (r : FVec Ideal ⟨2, ![N, K]⟩ φ₂) (p : Fin M) (q : Fin N) :
    Host.dotGeneral (ntDims M K N wf) prec l r (ix2 p q)
      = ∑ k : Fin K, l (ix2 p k) * r (ix2 q k) := by
  show FloatOps.dotGeneral (ntDims M K N wf) prec .single l r (ix2 p q) = _
  rw [Ideal.dotGeneral_apply]
  exact nt_sum wf l r p q

end Idealize.ShloMosaic.DotNT

end
-- ==== Proof.Spec.lean ====
/-
  The graph convolution layer, index by index, over the extended reals.

  `lin x w` is the linear transform `x · wᵀ`: entry `(n, o)` is `∑ k, x[n, k] * w[o, k]`.
  `act h a s b` is the layer's output from the transformed features `h`, the aggregated messages
  `a`, the skip weights `s` and the bias `b`: entry `(n, o)` is `selu (h[n, o] * s[o] + a[n, o] + b[o])`
  with `selu z = λ · (if z > 0 then z else α · (eᶻ − 1))`, the two constants kept as the binary32 words
  the programs carry. At the ideal instance `expm1 z` is `eᶻ − 1` by definition and the word of `1.0` is
  the real one, so the kernel's `exp z − 1.0` and the reference's `expm1` of the guarded argument
  (`z` where `z ≤ 0`) are the same number wherever the branch is taken.
-/
import Idealize.ShloMosaic.PureOps.Ideal
import Idealize.ShloMosaic.Lib.ValueIdx
import proofs.«108576_j78821239816696_1_alg».proof.Proof.LibDotNT

noncomputable section

open scoped BigOperators

namespace GcnSpec

open Idealize.ShloMosaic Idealize.ShloMosaic.ValueIdx

abbrev SN : Shape := ⟨2, ![50000, 64]⟩
abbrev SW : Shape := ⟨2, ![64, 64]⟩
abbrev SV : Shape := ⟨1, ![64]⟩

theorem wfLin : DotDims.WF SN SW SN [1] [1] [0] [0] [] [] := by decide

/-- The linear transform `x · wᵀ`, as the host's general dot product contracting axis 1 of both. -/
def lin (x : FVec Ideal SN .f32) (w : FVec Ideal SW .f32) : FVec Ideal SN .f32 :=
  Host.dotGeneral (DotNT.ntDims 50000 64 64 wfLin) none x w

/-- Entry `(n, o)` of the transform is `∑ k, x[n, k] * w[o, k]`. -/
theorem lin_apply (x : FVec Ideal SN .f32) (w : FVec Ideal SW .f32) (n : Fin 50000) (o : Fin 64) :
    lin x w (ix2 n o) = ∑ k : Fin 64, x (ix2 n k) * w (ix2 o k) :=
  DotNT.host_dotGeneral_nt_apply wfLin none x w n o

abbrev SE : Shape := ⟨1, ![800000]⟩
abbrev SE1 : Shape := ⟨2, ![800000, 1]⟩
abbrev SEF : Shape := ⟨2, ![800000, 64]⟩
abbrev S0 : Shape := ⟨0, ![]⟩

theorem bc_S0_SE : S0.BroadcastsInDim SE (![] : Fin 0 → Fin SE.rank) := by decide
theorem bc_SE_SE1 : SE.BroadcastsInDim SE1 (![0] : Fin 1 → Fin SE1.rank) := by decide
theorem bc_SE1_SEF : SE1.BroadcastsInDim SEF (![0, 1] : Fin 2 → Fin SEF.rank) := by decide
theorem bc_S0_SN : S0.BroadcastsInDim SN (![] : Fin 0 → Fin SN.rank) := by decide
theorem wfGather : GatherDims.WF SN SE1 SEF [1] [0] [] [0] [] 1 ![1, 64] := by decide
theorem wfScatter : ScatterDims.WF SN SE1 SEF [1] [0] [0] 1 := by decide

/-- One whole row of the node array per edge: row `idx[e, 0]` becomes row `e`. -/
def gatherRows : GatherDims SN SE1 SEF where
  offsetDims := [1]
  collapsedSliceDims := [0]
  operandBatchingDims := []
  startIndicesBatchingDims := []
  startIndexMap := [0]
  indexVectorDim := 1
  sliceSizes := ![1, 64]
  wf := wfGather

/-- One whole row per edge added into the node array at row `idx[e, 0]`. -/
def scatterRows : ScatterDims SN SE1 SEF where
  updateWindowDims := [1]
  insertedWindowDims := [0]
  scatterDimsToOperandDims := [0]
  indexVectorDim := 1
  wf := wfScatter

/-- The sparse aggregation both programs apply to the transformed features `h`, as the host operations
    spell it: the source indices normalised (a negative index shifted by the node count), the source rows
    gathered, each scaled by its edge's weight, and the rows scatter-added by destination into zeros. It
    is never opened: the two programs apply it to equal arrays. -/
def agg (h : FVec Ideal SN .f32) (ew : FVec Ideal SE .f32) (src dst : IVec SE 32) : FVec Ideal SN .f32 :=
  Host.scatterAdd scatterRows (broadcastInDim SN ![] bc_S0_SN (constant S0 .f32 0x00000000#32))
    (broadcastInDim SE1 ![0] bc_SE_SE1 dst)
    (mulf
      (Host.gather gatherRows h
        (broadcastInDim SE1 ![0] bc_SE_SE1
          (select (cmpi .slt src (broadcastInDim SE ![] bc_S0_SE (constantI S0 32 0#32)))
            (addi src (broadcastInDim SE ![] bc_S0_SE (constantI S0 32 50000#32))) src)))
      (broadcastInDim SEF ![0, 1] bc_SE1_SEF (broadcastInDim SE1 ![0] bc_SE_SE1 ew)))

/-- `selu` of one pre-activation, in the kernel's spelling: `λ · (if z > 0 then z else α · (eᶻ − 1))`. -/
def seluAt (z : EReal) : EReal :=
  Ideal.ofBits .f32 0x3F867D5F#32 *
    Scalar.select (FloatOps.cmpf (F := Ideal) .ogt z (Ideal.ofBits .f32 0x00000000#32)) z
      (Ideal.ofBits .f32 0x3FD62D7D#32 * (Ideal.exp z - Ideal.ofBits .f32 0x3F800000#32))

/-- The layer's output at one entry from the four numbers it depends on. -/
def actAt (h a s b : EReal) : EReal := seluAt (h * s + a + b)

/-- The layer's output array. -/
def act (h a : FVec Ideal SN .f32) (s b : FVec Ideal SV .f32) : FVec Ideal SN .f32 :=
  fun i => actAt (h i) (a i) (s (ix1 (⟨(i 1).val, idx2_lt1 i⟩ : Fin 64))) (b (ix1 (⟨(i 1).val, idx2_lt1 i⟩ : Fin 64)))

theorem act_apply (h a : FVec Ideal SN .f32) (s b : FVec Ideal SV .f32) (n : Fin 50000) (o : Fin 64) :
    act h a s b (ix2 n o) = actAt (h (ix2 n o)) (a (ix2 n o)) (s (ix1 o)) (b (ix1 o)) := rfl

end GcnSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0Value.lean ====
/-
  The first region's value: the transformed features.

  The first pallas_call walks the node axis in ten blocks of 5000 rows. At point `t` the body loads
  rows `5000 t … 5000 t + 4999` of the features and the whole weight matrix, and stores the matrix
  product of the block with the weights' transpose, accumulated into zero. At the ideal instance entry
  `(r, q)` of that product is `∑ k, x[5000 t + r, k] * w[q, k]`, which is entry `(5000 t + r, q)` of the
  linear transform `lin x w`. The ten blocks tile the result array, so it ends holding `lin x w`.
  Everything is stated at a parameter `V`, the buffers' contents when the region is entered.
-/
import proofs.«108576_j78821239816696_1_alg».proof.Proof.Gen.KernelIdeal.Frame
import proofs.«108576_j78821239816696_1_alg».proof.Proof.LibDot2
import proofs.«108576_j78821239816696_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GcnSpec (lin lin_apply)

variable (V : (c : Dev nD) → (b : Ref sig .tc) → Buf (Elt Ideal) ((c : Thread nD τ).loc b))

theorem zero_off : (![0, 0] : Fin 2 → Nat) = fun _ => 0 := funext fun a => by fin_cases a <;> rfl

/-- The body's stored value at `(r, q)`: the block's row `r` against the weights' row `q`. -/
theorem pay0_apply (x0 : Vec Ideal S5000x64 .f32) (x1 : Vec Ideal S64x64 .f32) (r : Fin 5000) (q : Fin 64) :
    k0_pay1 x0 x1 (ix2 r q) = ∑ k : Fin 64, x0 (ix2 r k) * x1 (ix2 q k) := by
  unfold k0_pay1
  refine (Dot2.matmul_zero_mm_apply dot_S5000x64_S64x64_S5000x64_1_0_0_1_n_n_wf none _ _ r q).trans ?_
  refine Finset.sum_congr rfl fun k _ => ?_
  have ht : (transpose S64x64 [1, 0] (truncf .bf16 x1 bitsLt_bf16_f32) transposes_S64x64_p1_0_S64x64 : FVec Ideal S64x64 .bf16) (ix2 k q)
      = x1 (ix2 q k) :=
    transpose_apply [1, 0] _ _ (ix2 k q) (ix2 q k) (fun b => by match b with | ⟨0, _⟩ => rfl | ⟨1, _⟩ => rfl)
  exact congrArg (fun z => x0 (ix2 r k) * z) ht

/-- The printed index maps over the grid: the features' and the result's block index is the point, the
    weights' block is always block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the linear transform of the arrays the region finds. -/
theorem flushed0 (c : Dev nD) (t : Fin cfg0.N) :
    (dat0 V c).flushed 2 t = ((cfg0.win 2).blk t).view.read (Elt Ideal) (lin (V c main_arg0) (V c main_arg1)) := by
  show (cfg0.win 2).cut (grid0.coords t) ((dat0 V c).after 2 t) = _
  rw [after0_2]
  unfold out0_2
  rw [View.canon_unit_zero zero_off]
  simp only [View.ld_unit_zero (S := S5000x64) zero_off, View.ld_unit_zero (S := S64x64) zero_off]
  obtain ⟨e00, e01, e10, e11, e20, e21⟩ := idx0 t
  have ht : t.val < 10 := Nat.lt_of_lt_of_eq t.isLt N_0
  funext j
  obtain ⟨r, q, rfl⟩ : ∃ (r : Fin 5000) (q : Fin 64), j = ix2 r q := ⟨j 0, j 1, eq_ix2 j⟩
  show k0_pay1 (iblk0 V c 0 t) (iblk0 V c 1 t) (ix2 r q)
    = lin (V c main_arg0) (V c main_arg1) (((cfg0.win 2).blk t).view.emb (ix2 r q))
  have hemb : ((cfg0.win 2).blk t).view.emb (ix2 r q) = ix2 (⟨5000 * t.val + r.val, by omega⟩ : Fin 50000) q := by
    funext a; apply Fin.ext
    match a with
    | ⟨0, _⟩ => show win0_2.index t (0 : Fin 2) * 5000 + 1 * r.val = 5000 * t.val + r.val; omega
    | ⟨1, _⟩ => show win0_2.index t (1 : Fin 2) * 64 + 1 * q.val = q.val; omega
  rw [hemb, lin_apply]
  refine (pay0_apply (iblk0 V c 0 t) (iblk0 V c 1 t) r q).trans (Finset.sum_congr rfl fun k _ => ?_)
  have h0 : (iblk0 V c 0 t : Vec Ideal S5000x64 .f32) (ix2 r k)
      = (V c main_arg0 : S50000x64.Idx → EReal) (ix2 (⟨5000 * t.val + r.val, by omega⟩ : Fin 50000) k) := by
    show (V c main_arg0 : S50000x64.Idx → EReal) (((cfg0.win 0).blk t).view.emb (ix2 r k)) = _
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 64 + 1 * k.val = k.val; omega
  have h1 : (iblk0 V c 1 t : Vec Ideal S64x64 .f32) (ix2 q k) = (V c main_arg1 : S64x64.Idx → EReal) (ix2 q k) := by
    show (V c main_arg1 : S64x64.Idx → EReal) (((cfg0.win 1).blk t).view.emb (ix2 q k)) = _
    refine congrArg _ (funext fun a => Fin.ext ?_)
    match a with
    | ⟨0, _⟩ => show win0_1.index t (0 : Fin 2) * 64 + 1 * q.val = q.val; omega
    | ⟨1, _⟩ => show win0_1.index t (1 : Fin 2) * 64 + 1 * k.val = k.val; omega
  rw [h0, h1]

/-- An index of the result array is in point `t`'s block iff each coordinate is in the block's range. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `n` of the result lies in the block of point `n / 5000`: the ten blocks tile the array. -/
theorem cover0 (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  obtain ⟨t, ht⟩ : ∃ t : Fin cfg0.N, t.val = (i 0).val / 5000 :=
    ⟨⟨(i 0).val / 5000, by rw [show cfg0.N = 10 from N_0]; omega⟩, rfl⟩
  obtain ⟨-, -, -, -, e20, e21⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the first region: the linear transform of the arrays the region finds. -/
theorem final0 (c : Dev nD) : (dat0 V c).arrAt 2 cfg0.N = lin (V c main_arg0) (V c main_arg1) :=
  (dat0 V c).arrAt_eq_of_cover 2 (lin (V c main_arg0) (V c main_arg1)) (fun t _ => flushed0 V c t) cover0

end Cert.KernelIdeal.Hand

end
-- ==== Proof.Region1Value.lean ====
/-
  The second region's value: skip, aggregate, bias and activation.

  The second pallas_call walks the node axis in the same ten blocks of 5000 rows. At point `t` the body
  loads block `t` of the transformed features `h` and of the aggregated messages `a`, and the whole
  `[1, 64]` rows of skip weights `s` and bias `b`, and stores `selu (h * s + a + b)` with the two rows
  broadcast down the block. Entry `(r, q)` of what it stores is `actAt` of `h[5000 t + r, q]`,
  `a[5000 t + r, q]`, `s[0, q]`, `b[0, q]`; the ten blocks tile the result array, so it ends holding
  `act2 h a s b`. Everything is stated at a parameter `V`, the buffers' contents when the region is entered.
-/
import proofs.«108576_j78821239816696_1_alg».proof.Proof.Gen.KernelIdeal.Frame
import proofs.«108576_j78821239816696_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GcnSpec (actAt seluAt)

variable (V : (c : Dev nD) → (b : Ref sig .tc) → Buf (Elt Ideal) ((c : Thread nD τ).loc b))

theorem zero_off1 : (![0, 0] : Fin 2 → Nat) = fun _ => 0 := funext fun a => by fin_cases a <;> rfl

/-- The layer's output array over the skip weights and bias as `[1, 64]` rows. -/
def act2 (h a : FVec Ideal S50000x64 .f32) (s b : FVec Ideal S1x64 .f32) : FVec Ideal S50000x64 .f32 :=
  fun i => actAt (h i) (a i) (s (ix2 (0 : Fin 1) (⟨(i 1).val, idx2_lt1 i⟩ : Fin 64)))
    (b (ix2 (0 : Fin 1) (⟨(i 1).val, idx2_lt1 i⟩ : Fin 64)))

theorem act2_apply (h a : FVec Ideal S50000x64 .f32) (s b : FVec Ideal S1x64 .f32) (n : Fin 50000) (o : Fin 64) :
    act2 h a s b (ix2 n o) = actAt (h (ix2 n o)) (a (ix2 n o)) (s (ix2 (0 : Fin 1) o)) (b (ix2 (0 : Fin 1) o)) := rfl

/-- A `[1, 64]` row broadcast down a block reads its column's entry. -/
theorem row_bcast (v : Vec Ideal S1x64 .f32) (hb : S1x64.Broadcasts S5000x64) (r : Fin 5000) (q : Fin 64) :
    broadcastTo S5000x64 v hb (ix2 r q) = v (ix2 (0 : Fin 1) q) :=
  broadcastTo_apply v hb (ix2 r q) (ix2 (0 : Fin 1) q) (fun a => by match a with | ⟨0, _⟩ => rfl | ⟨1, _⟩ => rfl)

/-- The body's stored value at `(r, q)`. -/
theorem pay1_apply (x0 x1 : Vec Ideal S5000x64 .f32) (x2 x3 : Vec Ideal S1x64 .f32) (r : Fin 5000) (q : Fin 64) :
    k1_pay1 x0 x1 x2 x3 (ix2 r q)
      = actAt (x0 (ix2 r q)) (x1 (ix2 r q)) (x2 (ix2 (0 : Fin 1) q)) (x3 (ix2 (0 : Fin 1) q)) := by
  unfold k1_pay1
  simp only [shapeCast_self, mulf, addf, subf, exp, cmpf, select, broadcast]
  rw [row_bcast x2 _ r q, row_bcast x3 _ r q]
  rfl

/-- The printed index maps over the grid: the two node arrays' and the result's block index is the point,
    the two rows' block is always block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `act2` of the arrays the region finds. -/
theorem flushed1 (c : Dev nD) (t : Fin cfg1.N) :
    (dat1 V c).flushed 4 t = ((cfg1.win 4).blk t).view.read (Elt Ideal)
      (act2 (V c main_v0) (V c main_v13) (V c main_v14) (V c main_v15)) := by
  show (cfg1.win 4).cut (grid1.coords t) ((dat1 V c).after 4 t) = _
  rw [after1_4]
  unfold out1_4
  rw [View.canon_unit_zero zero_off1]
  simp only [View.ld_unit_zero (S := S5000x64) zero_off1, View.ld_unit_zero (S := S1x64) zero_off1]
  obtain ⟨e00, e01, e10, e11, e20, e21, e30, e31, e40, e41⟩ := idx1 t
  have ht : t.val < 10 := Nat.lt_of_lt_of_eq t.isLt N_1
  funext j
  obtain ⟨r, q, rfl⟩ : ∃ (r : Fin 5000) (q : Fin 64), j = ix2 r q := ⟨j 0, j 1, eq_ix2 j⟩
  show k1_pay1 (iblk1 V c 0 t) (iblk1 V c 1 t) (iblk1 V c 2 t) (iblk1 V c 3 t) (ix2 r q)
    = act2 (V c main_v0) (V c main_v13) (V c main_v14) (V c main_v15) (((cfg1.win 4).blk t).view.emb (ix2 r q))
  have hemb : ((cfg1.win 4).blk t).view.emb (ix2 r q) = ix2 (⟨5000 * t.val + r.val, by omega⟩ : Fin 50000) q := by
    funext a; apply Fin.ext
    match a with
    | ⟨0, _⟩ => show win1_4.index t (0 : Fin 2) * 5000 + 1 * r.val = 5000 * t.val + r.val; omega
    | ⟨1, _⟩ => show win1_4.index t (1 : Fin 2) * 64 + 1 * q.val = q.val; omega
  rw [hemb, act2_apply]
  refine (pay1_apply (iblk1 V c 0 t) (iblk1 V c 1 t) (iblk1 V c 2 t) (iblk1 V c 3 t) r q).trans ?_
  have h0 : (iblk1 V c 0 t : Vec Ideal S5000x64 .f32) (ix2 r q)
      = (V c main_v0 : S50000x64.Idx → EReal) (ix2 (⟨5000 * t.val + r.val, by omega⟩ : Fin 50000) q) := by
    show (V c main_v0 : S50000x64.Idx → EReal) (((cfg1.win 0).blk t).view.emb (ix2 r q)) = _
    refine congrArg _ (funext fun a => Fin.ext ?_)
    match a with
    | ⟨0, _⟩ => show win1_0.index t (0 : Fin 2) * 5000 + 1 * r.val = 5000 * t.val + r.val; omega
    | ⟨1, _⟩ => show win1_0.index t (1 : Fin 2) * 64 + 1 * q.val = q.val; omega
  have h1 : (iblk1 V c 1 t : Vec Ideal S5000x64 .f32) (ix2 r q)
      = (V c main_v13 : S50000x64.Idx → EReal) (ix2 (⟨5000 * t.val + r.val, by omega⟩ : Fin 50000) q) := by
    show (V c main_v13 : S50000x64.Idx → EReal) (((cfg1.win 1).blk t).view.emb (ix2 r q)) = _
    refine congrArg _ (funext fun a => Fin.ext ?_)
    match a with
    | ⟨0, _⟩ => show win1_1.index t (0 : Fin 2) * 5000 + 1 * r.val = 5000 * t.val + r.val; omega
    | ⟨1, _⟩ => show win1_1.index t (1 : Fin 2) * 64 + 1 * q.val = q.val; omega
  have h2 : (iblk1 V c 2 t : Vec Ideal S1x64 .f32) (ix2 (0 : Fin 1) q)
      = (V c main_v14 : S1x64.Idx → EReal) (ix2 (0 : Fin 1) q) := by
    show (V c main_v14 : S1x64.Idx → EReal) (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  have h3 : (iblk1 V c 3 t : Vec Ideal S1x64 .f32) (ix2 (0 : Fin 1) q)
      = (V c main_v15 : S1x64.Idx → EReal) (ix2 (0 : Fin 1) q) := by
    show (V c main_v15 : S1x64.Idx → EReal) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  rw [h0, h1, h2, h3]

/-- An index of the result array is in point `t`'s block iff each coordinate is in the block's range. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v16).slice (win1_4.rect t)).set ↔ _
  rw [View.set_slice_whole, Rect.mem_set_unit]
  exact Iff.rfl

/-- Row `n` of the result lies in the block of point `n / 5000`: the ten blocks tile the array. -/
theorem cover1 (i : S50000x64.Idx) :
    ∃ t : Fin cfg1.N, (cfg1.win 4).flush t = true ∧ i ∈ ((cfg1.win 4).blk t).view.set := by
  have hi0 : (i 0).val < 50000 := idx2_lt0 i
  have hi1 : (i 1).val < 64 := idx2_lt1 i
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e40, e41⟩ := idx1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the second region: `act2` of the arrays the region finds. -/
theorem final1 (c : Dev nD) :
    (dat1 V c).arrAt 4 cfg1.N = act2 (V c main_v0) (V c main_v13) (V c main_v14) (V c main_v15) :=
  (dat1 V c).arrAt_eq_of_cover 4 (act2 (V c main_v0) (V c main_v13) (V c main_v14) (V c main_v15))
    (fun t _ => flushed1 V c t) cover1

end Cert.KernelIdeal.Hand

end
-- ==== Proof.Region1Entry.lean ====
/-
  What the second region finds, and the kernel's result as one function of the arguments.

  Between the two regions eighteen host operations run. None writes the transformed features, so the
  second region reads them as the first left them: `lin x w`. The aggregate is the host chain `agg`
  applied to them and to the edge arrays, which nothing before has written; the skip weights and the
  bias arrive as `[1, 64]` rows, their `[64]` vectors reshaped. With the second region's value this
  gives the kernel's result: `act (lin x w) (agg (lin x w) ew src dst) skip bias`.
-/
import proofs.«108576_j78821239816696_1_alg».proof.Proof.Gen.KernelIdeal.Frame
import proofs.«108576_j78821239816696_1_alg».proof.Proof.Spec
import proofs.«108576_j78821239816696_1_alg».proof.Proof.Region0Value
import proofs.«108576_j78821239816696_1_alg».proof.Proof.Region1Value
import proofs.«108576_j78821239816696_1_alg».proof.Proof.KernelRun
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo (after after_cons after_nil)
open Idealize.ShloMosaic.StableHlo
open GcnSpec (lin agg act actAt)

/-! ## The host stretch between the regions, from any contents `W` -/

section Stretch
variable (W : Valuation τ sig (Elt Ideal))

/-- No operation of the stretch writes the transformed features. -/
theorem stretch_h : after hostOps1 W (Proc.devRef .tc main_v0) = W (Proc.devRef .tc main_v0) := by
  after_results

/-- The aggregate is the shared host chain of the transformed features and the edge arrays. -/
theorem stretch_agg : after hostOps1 W (Proc.devRef .tc main_v13)
    = agg (W (Proc.devRef .tc main_v0)) (W (Proc.devRef .tc main_arg4)) (W (Proc.devRef .tc main_arg5)) (W (Proc.devRef .tc main_arg6)) := by
  after_results
  rfl

/-- The skip weights as a `[1, 64]` row. -/
theorem stretch_skip : after hostOps1 W (Proc.devRef .tc main_v14)
    = shapeCast S1x64 (W (Proc.devRef .tc main_arg3)) shapeCasts_S64_S1x64 := by
  after_results
  rfl

/-- The bias as a `[1, 64]` row. -/
theorem stretch_bias : after hostOps1 W (Proc.devRef .tc main_v15)
    = shapeCast S1x64 (W (Proc.devRef .tc main_arg2)) shapeCasts_S64_S1x64 := by
  after_results
  rfl

end Stretch

variable (m : (ℓ : Loc nD τ sig) → Buf (Elt Ideal) ℓ) (ρ : Dev nD → PrngReg)

/-! ## The contents at the first region's exit -/

theorem exit0_h (c : Dev nD) : W1 m ρ c (Proc.devRef .tc main_v0)
    = lin (m ((c : Thread nD τ).loc main_arg0)) (m ((c : Thread nD τ).loc main_arg1)) :=
  (W1_arr m ρ c 2).trans (final0 (V0 m ρ) c)

theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg4 (c : Dev nD) : W1 m ρ c (Proc.devRef .tc main_arg4) = m ((c : Thread nD τ).loc main_arg4) :=
  W1_of_ne m ρ c main_arg4 (by decide)
theorem exit0_arg5 (c : Dev nD) : W1 m ρ c (Proc.devRef .tc main_arg5) = m ((c : Thread nD τ).loc main_arg5) :=
  W1_of_ne m ρ c main_arg5 (by decide)
theorem exit0_arg6 (c : Dev nD) : W1 m ρ c (Proc.devRef .tc main_arg6) = m ((c : Thread nD τ).loc main_arg6) :=
  W1_of_ne m ρ c main_arg6 (by decide)

/-! ## The contents at the second region's entry -/

theorem entry1_h (c : Dev nD) : V2 m ρ c main_v0
    = lin (m ((c : Thread nD τ).loc main_arg0)) (m ((c : Thread nD τ).loc main_arg1)) :=
  (stretch_h (W1 m ρ c)).trans (exit0_h m ρ c)

theorem entry1_agg (c : Dev nD) : V2 m ρ c main_v13
    = agg (lin (m ((c : Thread nD τ).loc main_arg0)) (m ((c : Thread nD τ).loc main_arg1)))
        (m ((c : Thread nD τ).loc main_arg4)) (m ((c : Thread nD τ).loc main_arg5)) (m ((c : Thread nD τ).loc main_arg6)) := by
  refine (stretch_agg (W1 m ρ c)).trans ?_
  rw [exit0_h, exit0_arg4, exit0_arg5, exit0_arg6]

theorem entry1_skip (c : Dev nD) : V2 m ρ c main_v14
    = shapeCast S1x64 (m ((c : Thread nD τ).loc main_arg3)) shapeCasts_S64_S1x64 := by
  refine (stretch_skip (W1 m ρ c)).trans ?_
  rw [exit0_arg3]

theorem entry1_bias (c : Dev nD) : V2 m ρ c main_v15
    = shapeCast S1x64 (m ((c : Thread nD τ).loc main_arg2)) shapeCasts_S64_S1x64 := by
  refine (stretch_bias (W1 m ρ c)).trans ?_
  rw [exit0_arg2]

/-! ## The kernel's result -/

/-- The layer's output over `[1, 64]` rows that are reshaped `[64]` vectors is the layer's output over the vectors. -/
theorem act2_rows (h a : FVec Ideal S50000x64 .f32) (s b : FVec Ideal S64 .f32) :
    act2 h a (shapeCast S1x64 s shapeCasts_S64_S1x64) (shapeCast S1x64 b shapeCasts_S64_S1x64) = act h a s b := by
  funext i
  obtain ⟨n, o, rfl⟩ : ∃ (n : Fin 50000) (o : Fin 64), i = ix2 n o := ⟨i 0, i 1, eq_ix2 i⟩
  rw [act2_apply, GcnSpec.act_apply, shapeCast_a_1a_apply, shapeCast_a_1a_apply]

/-- The kernel's result as one function of the seven argument arrays. -/
def kernelOut (c : Dev nD) : FVec Ideal S50000x64 .f32 :=
  act (lin (m ((c : Thread nD τ).loc main_arg0)) (m ((c : Thread nD τ).loc main_arg1)))
    (agg (lin (m ((c : Thread nD τ).loc main_arg0)) (m ((c : Thread nD τ).loc main_arg1)))
      (m ((c : Thread nD τ).loc main_arg4)) (m ((c : Thread nD τ).loc main_arg5)) (m ((c : Thread nD τ).loc main_arg6)))
    (m ((c : Thread nD τ).loc main_arg3)) (m ((c : Thread nD τ).loc main_arg2))

theorem result_eq (c : Dev nD) : (dat1 (V2 m ρ) c).arrAt 4 cfg1.N = kernelOut m c := by
  rw [final1 (V2 m ρ) c, entry1_h, entry1_agg, entry1_skip, entry1_bias, act2_rows]
  rfl

/-- The kernel's run, read: the result array at `kernelOut`, the arguments unchanged. -/
theorem run_value : θ_run defs (onTc (τ := τ) (main (F := Ideal))) ⟨m, fun _ => 0, ρ⟩ (fun r => ∀ c : Dev nD,
      r.2.mem ((c.tc : Thread nD τ).loc main_v16) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_named m ρ)

end Cert.KernelIdeal.Hand

end
-- ==== Proof.RefRun.lean ====
/-
  The reference program's run, read back.

  The reference's @main is a straight line of host operations: the einsum `"nd,od->no"` (a general dot
  product contracting axis 1 of both operands), the skip scale, the edge list's index normalisation (a
  negative source index is shifted by the node count), the gather of source rows, the edge weights
  broadcast along the feature axis, the scatter-add into a zero array by destination, the two sums, and
  `selu` — which calls `elu`, which calls `where` twice. With the three functions unfolded at their calls
  the program is one list of 43 operations; its result buffer ends holding the operations' composed
  term of the seven argument arrays (`refOut`), and no operation writes an argument.
-/
import proofs.«108576_j78821239816696_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 43 operations in order, `selu`, `elu` and the two `where`s unfolded at their calls. -/
abbrev ops : List (HloOp τ sig (Elt F)) :=
  [ StableHlo.binary main_arg0 main_arg1 main_v0 ((fun l r => Host.dotGeneral dot_S50000x64_S64x64_S50000x64_1_1_0_0_n_n none l r) : (⟨S50000x64, .f32⟩ : BufTy).Contents (Elt F) → (⟨S64x64, .f32⟩ : BufTy).Contents (Elt F) → (⟨S50000x64, .f32⟩ : BufTy).Contents (Elt F)),
    StableHlo.unary main_arg3 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (mulf : (⟨S50000x64, .f32⟩ : BufTy).Contents (Elt F) → (⟨S50000x64, .f32⟩ : BufTy).Contents (Elt F) → (⟨S50000x64, .f32⟩ : BufTy).Contents (Elt F)),
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg5 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_arg5 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg5 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_arg4 main_v11 (broadcastInDim S800000x1 ![0] bcast_S800000_S800000x1_0 : (⟨S800000, .f32⟩ : BufTy).Contents (Elt F) → (⟨S800000x1, .f32⟩ : BufTy).Contents (Elt F)),
    StableHlo.unary main_v11 main_v12 (broadcastInDim S800000x64 ![0, 1] bcast_S800000x1_S800000x64_0_1 : (⟨S800000x1, .f32⟩ : BufTy).Contents (Elt F) → (⟨S800000x64, .f32⟩ : BufTy).Contents (Elt F)),
    StableHlo.binary main_v10 main_v12 main_v13 (mulf : (⟨S800000x64, .f32⟩ : BufTy).Contents (Elt F) → (⟨S800000x64, .f32⟩ : BufTy).Contents (Elt F) → (⟨S800000x64, .f32⟩ : BufTy).Contents (Elt F)),
    StableHlo.nullary main_cst (constant S_ .f32 0x00000000#32),
    StableHlo.unary main_cst main_v14 (broadcastInDim S50000x64 ![] bcast_S_S50000x64 : (⟨S_, .f32⟩ : BufTy).Contents (Elt F) → (⟨S50000x64, .f32⟩ : BufTy).Contents (Elt F)),
    StableHlo.unary main_arg6 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v13 main_v16 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v3 main_v16 main_v17 (addf : (⟨S50000x64, .f32⟩ : BufTy).Contents (Elt F) → (⟨S50000x64, .f32⟩ : BufTy).Contents (Elt F) → (⟨S50000x64, .f32⟩ : BufTy).Contents (Elt F)),
    StableHlo.unary main_arg2 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v17 main_v19 main_v20 (addf : (⟨S50000x64, .f32⟩ : BufTy).Contents (Elt F) → (⟨S50000x64, .f32⟩ : BufTy).Contents (Elt F) → (⟨S50000x64, .f32⟩ : BufTy).Contents (Elt F)),
    -- selu
    TRef.nullary main_call0.cst (constant S_ .f32 0x3FD62D7D#32),
    -- elu
    TRef.nullary main_call0.call0.cst (constant S_ .f32 0x00000000#32),
    TRef.unary main_call0.call0.cst main_call0.call0.v0 (broadcastInDim S50000x64 ![] bcast_S_S50000x64),
    TRef.binary (.of main_v20) main_call0.call0.v0 main_call0.call0.v1 (cmpf .ogt),
    TRef.nullary main_call0.call0.cst_0 (constant S_ .f32 0x00000000#32),
    TRef.unary main_call0.call0.cst_0 main_call0.call0.v2 (broadcastInDim S50000x64 ![] bcast_S_S50000x64),
    TRef.binary (.of main_v20) main_call0.call0.v2 main_call0.call0.v3 (cmpf .ogt),
    TRef.nullary main_call0.call0.cst_1 (constant S_ .f32 0x00000000#32),
    -- where
    TRef.unary main_call0.call0.cst_1 main_call0.call0.call0.v0 id,
    TRef.unary main_call0.call0.call0.v0 main_call0.call0.call0.v1 (broadcastInDim S50000x64 ![] bcast_S_S50000x64),
    TRef.ternary main_call0.call0.v3 main_call0.call0.call0.v1 (.of main_v20) main_call0.call0.call0.v2 select,
    -- elu, continued
    TRef.unary main_call0.call0.call0.v2 main_call0.call0.v5 Host.expm1,
    TRef.unary main_call0.cst main_call0.call0.v6 id,
    TRef.unary main_call0.call0.v6 main_call0.call0.v7 (broadcastInDim S50000x64 ![] bcast_S_S50000x64),
    TRef.binary main_call0.call0.v7 main_call0.call0.v5 main_call0.call0.v8 mulf,
    -- where_0
    TRef.ternary main_call0.call0.v1 (.of main_v20) main_call0.call0.v8 main_call0.call0.call1.v0 select,
    -- selu, continued
    TRef.nullary main_call0.cst_0 (constant S_ .f32 0x3F867D5F#32),
    TRef.unary main_call0.cst_0 main_call0.v1 (broadcastInDim S50000x64 ![] bcast_S_S50000x64),
    TRef.binary main_call0.v1 main_call0.call0.call1.v0 main_call0.v2 mulf ]

-- forty-three binds re-associated
set_option maxRecDepth 2048 in
/-- @main is that straight line: the functions' definitions unfolded at their calls, both sides one chain
    of host steps once sequencing is reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    nullary_bufs_sub ..,
    nullary_bufs_sub .., unary_bufs_sub .., binary_bufs_sub .., nullary_bufs_sub .., unary_bufs_sub .., binary_bufs_sub ..,
    nullary_bufs_sub ..,
    unary_bufs_sub .., unary_bufs_sub .., ternary_bufs_sub ..,
    unary_bufs_sub .., unary_bufs_sub .., unary_bufs_sub .., binary_bufs_sub ..,
    ternary_bufs_sub ..,
    nullary_bufs_sub .., unary_bufs_sub .., binary_bufs_sub ..⟩

/-- Every weakly fair execution of @main terminates, and every final state has each buffer at the
    operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference's result as one function of the arguments.

  Read through its 43 operations the reference's result is `selu`, in jax's spelling, of
  `lin x w * skip + agg (lin x w) ew src dst + bias` with the two vectors broadcast along the rows.
  jax's `selu z` is `λ · where (z > 0, z, α · expm1 (where (z > 0, 0, z)))`: where the outer branch takes
  its third operand `z > 0` fails, so the inner `where` hands `expm1` the number `z` itself, and at the
  ideal instance `expm1 z` is `eᶻ − 1`, the kernel's `exp z − 1`. Entry by entry the result is therefore
  `act (lin x w) (agg (lin x w) ew src dst) skip bias`.
-/
import proofs.«108576_j78821239816696_1_alg».proof.Proof.RefRun
import proofs.«108576_j78821239816696_1_alg».proof.Proof.Spec
import Idealize.ShloMosaic.Lib.Pipeline.Value
import Idealize.ShloMosaic.Lib.ValueIdx
import Idealize.ShloMosaic.Lib.IdealHost
import Idealize.ShloMosaic.PureOps.IdealRules

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.ValueIdx
open Idealize.ShloMosaic.StableHlo
open GcnSpec (lin agg act actAt seluAt)

/-- jax's `selu` of a whole array, as the reference's operations spell it. -/
def seluRef (x : FVec Ideal S50000x64 .f32) : FVec Ideal S50000x64 .f32 :=
  mulf (broadcastInDim S50000x64 ![] bcast_S_S50000x64 (constant S_ .f32 0x3F867D5F#32))
    (select (cmpf .ogt x (broadcastInDim S50000x64 ![] bcast_S_S50000x64 (constant S_ .f32 0x00000000#32))) x
      (mulf (broadcastInDim S50000x64 ![] bcast_S_S50000x64 (constant S_ .f32 0x3FD62D7D#32))
        (Host.expm1
          (select (cmpf .ogt x (broadcastInDim S50000x64 ![] bcast_S_S50000x64 (constant S_ .f32 0x00000000#32)))
            (broadcastInDim S50000x64 ![] bcast_S_S50000x64 (constant S_ .f32 0x00000000#32)) x))))

/-- The pre-activation: the transformed features scaled by the skip row, plus the aggregate, plus the bias row. -/
def preAct (h a : FVec Ideal S50000x64 .f32) (s b : FVec Ideal S64 .f32) : FVec Ideal S50000x64 .f32 :=
  addf (addf (mulf h (broadcastInDim S50000x64 ![0, 1] bcast_S1x64_S50000x64_0_1 (broadcastInDim S1x64 ![1] bcast_S64_S1x64_1 s))) a)
    (broadcastInDim S50000x64 ![0, 1] bcast_S1x64_S50000x64_0_1 (broadcastInDim S1x64 ![1] bcast_S64_S1x64_1 b))

set_option maxHeartbeats 2000000 in
/-- The operations' composed term at the result buffer, from any contents `V`. -/
theorem out_fold (V : Valuation τ sig (Elt Ideal)) :
    after ops V (Proc.devRef .tc main_v21)
      = seluRef (preAct (lin (V (Proc.devRef .tc main_arg0)) (V (Proc.devRef .tc main_arg1)))
          (agg (lin (V (Proc.devRef .tc main_arg0)) (V (Proc.devRef .tc main_arg1)))
            (V (Proc.devRef .tc main_arg4)) (V (Proc.devRef .tc main_arg5)) (V (Proc.devRef .tc main_arg6)))
          (V (Proc.devRef .tc main_arg3)) (V (Proc.devRef .tc main_arg2))) := by
  after_results_simp
  rfl

theorem arg0_fold (V : Valuation τ sig (Elt Ideal)) : after ops V (Proc.devRef .tc main_arg0) = V (Proc.devRef .tc main_arg0) := by after_results_simp
theorem arg1_fold (V : Valuation τ sig (Elt Ideal)) : after ops V (Proc.devRef .tc main_arg1) = V (Proc.devRef .tc main_arg1) := by after_results_simp
theorem arg2_fold (V : Valuation τ sig (Elt Ideal)) : after ops V (Proc.devRef .tc main_arg2) = V (Proc.devRef .tc main_arg2) := by after_results_simp
theorem arg3_fold (V : Valuation τ sig (Elt Ideal)) : after ops V (Proc.devRef .tc main_arg3) = V (Proc.devRef .tc main_arg3) := by after_results_simp
theorem arg4_fold (V : Valuation τ sig (Elt Ideal)) : after ops V (Proc.devRef .tc main_arg4) = V (Proc.devRef .tc main_arg4) := by after_results_simp
theorem arg5_fold (V : Valuation τ sig (Elt Ideal)) : after ops V (Proc.devRef .tc main_arg5) = V (Proc.devRef .tc main_arg5) := by after_results_simp
theorem arg6_fold (V : Valuation τ sig (Elt Ideal)) : after ops V (Proc.devRef .tc main_arg6) = V (Proc.devRef .tc main_arg6) := by after_results_simp

/-- A `[64]` vector broadcast to a `[1, 64]` row and then down the rows reads its column's entry. -/
theorem vec_bcast (s : FVec Ideal S64 .f32) (n : Fin 50000) (o : Fin 64) :
    broadcastInDim S50000x64 ![0, 1] bcast_S1x64_S50000x64_0_1 (broadcastInDim S1x64 ![1] bcast_S64_S1x64_1 s) (ix2 n o)
      = s (ix1 o) :=
  (broadcastInDim_apply _ _ _ (ix2 n o) (ix2 (0 : Fin 1) o)
      (fun a => by match a with | ⟨0, _⟩ => rfl | ⟨1, _⟩ => rfl)).trans
    (broadcastInDim_apply _ _ _ (ix2 (0 : Fin 1) o) (ix1 o) (fun a => by match a with | ⟨0, _⟩ => rfl))

/-- A scalar constant broadcast to the node array reads the number its word encodes. -/
theorem splat_at (w : BitVec 32) (i : S50000x64.Idx) :
    broadcastInDim S50000x64 ![] bcast_S_S50000x64 (constant (F := Ideal) S_ .f32 w) i = Ideal.ofBits .f32 w :=
  (broadcastInDim_scalar_apply _ _ i).trans rfl

/-- jax's `selu` of one number is the kernel's: where the outer branch reads the `expm1` side the guarded
    argument is the number itself, and `expm1 z = eᶻ − 1`. -/
theorem selu_at (x : FVec Ideal S50000x64 .f32) (i : S50000x64.Idx) : seluRef x i = seluAt (x i) := by
  have one_eq : Ideal.ofBits .f32 0x3F800000#32 = (1 : EReal) := IdealRules.sign_bit.ideal_onePat .f32
  show Ideal.ofBits .f32 0x3F867D5F#32 *
      Scalar.select (FloatOps.cmpf (F := Ideal) .ogt (x i) (Ideal.ofBits .f32 0x00000000#32)) (x i)
        (Ideal.ofBits .f32 0x3FD62D7D#32 *
          FloatOps.hostUnary (F := Ideal) .expm1
            (Scalar.select (FloatOps.cmpf (F := Ideal) .ogt (x i) (Ideal.ofBits .f32 0x00000000#32))
              (Ideal.ofBits .f32 0x00000000#32) (x i)))
    = seluAt (x i)
  unfold seluAt
  by_cases hc : FloatOps.cmpf (F := Ideal) .ogt (x i) (Ideal.ofBits .f32 0x00000000#32) = 1#1
  · simp only [hc, select_one]
  · simp only [eq_zero_of_ne_one hc, select_zero]
    rw [one_eq]; rfl

/-- The reference's composed term is the layer's output function. -/
theorem ref_eq (a0 : FVec Ideal S50000x64 .f32) (a1 : FVec Ideal S64x64 .f32) (a2 a3 : FVec Ideal S64 .f32)
    (a4 : FVec Ideal S800000 .f32) (a5 a6 : IVec S800000 32) :
    seluRef (preAct (lin a0 a1) (agg (lin a0 a1) a4 a5 a6) a3 a2) = act (lin a0 a1) (agg (lin a0 a1) a4 a5 a6) a3 a2 := by
  funext i
  obtain ⟨n, o, rfl⟩ : ∃ (n : Fin 50000) (o : Fin 64), i = ix2 n o := ⟨i 0, i 1, eq_ix2 i⟩
  rw [selu_at, GcnSpec.act_apply]
  unfold preAct actAt
  simp only [addf, mulf]
  rw [vec_bcast, vec_bcast]
  rfl

end Cert.ReferenceIdeal.Hand

end
-- ==== Proof.lean ====
/-
  A graph convolution layer: the kernel against its reference, over the extended reals.

  Both programs compute `selu (h * skip + A h + bias)` with `h = features · Wᵀ` and `A h` the sparse
  aggregation over the edge list (gather the source rows of `h`, scale by the edge weights, scatter-add by
  destination). The kernel computes `h` and the final activation in two pallas_calls over ten row blocks
  and `A h` between them on the host; the reference is host operations throughout.

  * `h`: a block product accumulated into zero against a general dot product — both, entry by entry, the
    sum over the contracted coordinate of the operands' products (Region0Value).
  * `A`: the same host operations in both programs, applied to equal arrays; carried as one function and
    never opened (Spec's `agg`).
  * the activation: the kernel's `exp z − 1` against jax's `expm1` of the guarded argument, one number where
    the branch is taken (Region1Value, RefValue).

  The frames of the two kernel programs are the generated ones; the reference's frame is its run with the
  result dropped. The idealization rewrote nothing, so `preserves` is trivial.
-/
import proofs.«108576_j78821239816696_1_alg».proof.Defs
import proofs.«108576_j78821239816696_1_alg».proof.Proof.Gen.Kernel
import proofs.«108576_j78821239816696_1_alg».proof.Proof.Gen.Kernel.Skeleton
import proofs.«108576_j78821239816696_1_alg».proof.Proof.Gen.Kernel.Launch
import proofs.«108576_j78821239816696_1_alg».proof.Proof.Gen.Kernel.Points
import proofs.«108576_j78821239816696_1_alg».proof.Proof.Gen.Kernel.Frame
import proofs.«108576_j78821239816696_1_alg».proof.Proof.Gen.KernelIdeal
import proofs.«108576_j78821239816696_1_alg».proof.Proof.Gen.KernelIdeal.Skeleton
import proofs.«108576_j78821239816696_1_alg».proof.Proof.Gen.KernelIdeal.Launch
import proofs.«108576_j78821239816696_1_alg».proof.Proof.Gen.KernelIdeal.Points
import proofs.«108576_j78821239816696_1_alg».proof.Proof.Gen.KernelIdeal.Frame
import proofs.«108576_j78821239816696_1_alg».proof.Proof.Gen.ReferenceIdeal
import proofs.«108576_j78821239816696_1_alg».proof.Proof.Gen.Pre_finite_inputs
import proofs.«108576_j78821239816696_1_alg».proof.Proof.Region1Entry
import proofs.«108576_j78821239816696_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the arguments read back through the operations' fold. -/
theorem frame_ri : Cert.frame_ReferenceIdeal := fun m ρ _ =>
  (θ_run Cert.ReferenceIdeal.defs _ _).mono
    (fun _ h c => ⟨(h c _).trans (Cert.ReferenceIdeal.Hand.arg0_fold _), (h c _).trans (Cert.ReferenceIdeal.Hand.arg1_fold _),
      (h c _).trans (Cert.ReferenceIdeal.Hand.arg2_fold _), (h c _).trans (Cert.ReferenceIdeal.Hand.arg3_fold _),
      (h c _).trans (Cert.ReferenceIdeal.Hand.arg4_fold _), (h c _).trans (Cert.ReferenceIdeal.Hand.arg5_fold _),
      (h c _).trans (Cert.ReferenceIdeal.Hand.arg6_fold _)⟩)
    (Cert.ReferenceIdeal.Hand.run_fold (F := Ideal) m ρ)

/-- Both programs end with the layer's output function of the seven arguments, which agree. -/
theorem algebraic : Cert.algebraic_KernelIdeal_ReferenceIdeal := by
  intro m ρ m' ρ' _ hagree
  refine ⟨fun c => Cert.KernelIdeal.Hand.kernelOut m c, Cert.KernelIdeal.Hand.run_value m ρ, ?_⟩
  refine (θ_run Cert.ReferenceIdeal.defs _ _).mono (fun _ h c => ?_) (Cert.ReferenceIdeal.Hand.run_fold (F := Ideal) m' ρ')
  refine ⟨?_, (h c _).trans (Cert.ReferenceIdeal.Hand.arg0_fold _), (h c _).trans (Cert.ReferenceIdeal.Hand.arg1_fold _),
      (h c _).trans (Cert.ReferenceIdeal.Hand.arg2_fold _), (h c _).trans (Cert.ReferenceIdeal.Hand.arg3_fold _),
      (h c _).trans (Cert.ReferenceIdeal.Hand.arg4_fold _), (h c _).trans (Cert.ReferenceIdeal.Hand.arg5_fold _),
      (h c _).trans (Cert.ReferenceIdeal.Hand.arg6_fold _)⟩
  refine (h c _).trans ((Cert.ReferenceIdeal.Hand.out_fold _).trans ?_)
  obtain ⟨e0, e1, e2, e3, e4, e5, e6⟩ := hagree c
  rw [Cert.ReferenceIdeal.Hand.ref_eq]
  show GcnSpec.act
      (GcnSpec.lin (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (GcnSpec.agg
        (GcnSpec.lin (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg2))
    = Cert.KernelIdeal.Hand.kernelOut m c
  rw [e0, e1, e2, e3, e4, e5, e6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
